-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S32x128 : Shape := ⟨2, ![32, 128]⟩
abbrev S8x3x128x512 : Shape := ⟨4, ![8, 3, 128, 512]⟩
abbrev S8x128 : Shape := ⟨2, ![8, 128]⟩
abbrev S8x128x512 : Shape := ⟨3, ![8, 128, 512]⟩
abbrev S8x512 : Shape := ⟨2, ![8, 512]⟩
abbrev S8 : Shape := ⟨1, ![8]⟩
abbrev S8x1 : Shape := ⟨2, ![8, 1]⟩
abbrev S32x1 : Shape := ⟨2, ![32, 1]⟩
abbrev S32 : Shape := ⟨1, ![32]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S32x3x512x512, .f32⟩
  | .hbm, ⟨1, _⟩ => ⟨S32x128, .f32⟩
  | .hbm, ⟨2, _⟩ => ⟨S32x1, .f32⟩
  | .hbm, ⟨3, _⟩ => ⟨S32, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S8x3x128x512, .f32⟩
  | .local _ .vmem, ⟨1, _⟩ => ⟨S8x3x128x512, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x3x128x512_S8x3x128x512_0_0_0_0 : ∀ a, (![0, 0, 0, 0] : Fin 4 → Nat) a + S8x3x128x512.size a ≤ S8x3x128x512.size a
  h_S8x3x128x512 : 0 < S8x3x128x512.numel
  reduces_S8x3x128x512_S8x128x512 : S8x3x128x512.Reduces [1] S8x128x512
  reduces_S8x128x512_S8x512 : S8x128x512.Reduces [1] S8x512
  reduces_S8x512_S8 : S8x512.Reduces [1] S8
  shapeCasts_S8_S8x1 : S8.ShapeCasts S8x1
  shapeCasts_S8x1_S8x1 : S8x1.ShapeCasts S8x1
  broadcasts_S8x1_S8x128 : S8x1.Broadcasts S8x128
  slices_S32x128_S32x1_0_0 : S32x128.Slices ![0, 0] S32x1
  shapeCasts_S32x1_S32 : S32x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x128x512.size a ≤ S32x3x512x512.size a
  hwx0_0 : ∀ i : grid0.Coords, EltTy.bits .f32 = 32 ∨ (Rect.block (s := S32x3x512x512) S8x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x128.size a
  hwx0_1 : ∀ i : grid0.Coords, EltTy.bits .f32 = 32 ∨ (Rect.block (s := S32x128) S8x128.size (cc0_transform_1 i) (hinb0_1 i)).WholeWords (EltTy.packing .f32)

variable [Facts₀]

abbrev win0_0 : Pipeline.Window sig grid0 :=
  Pipeline.Window.ofSpec (Memref.whole main_arg0) S8x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩
abbrev S32x3x1x512 : Shape := ⟨4, ![32, 3, 1, 512]⟩
abbrev S32x3x7x512 : Shape := ⟨4, ![32, 3, 7, 512]⟩
abbrev S32x3x519x512 : Shape := ⟨4, ![32, 3, 519, 512]⟩
abbrev S32x3x526x512 : Shape := ⟨4, ![32, 3, 526, 512]⟩
abbrev S32x3x526x1 : Shape := ⟨4, ![32, 3, 526, 1]⟩
abbrev S32x3x526x7 : Shape := ⟨4, ![32, 3, 526, 7]⟩
abbrev S32x3x526x519 : Shape := ⟨4, ![32, 3, 526, 519]⟩
abbrev S32x3x526x526 : Shape := ⟨4, ![32, 3, 526, 526]⟩
abbrev S32x526x526 : Shape := ⟨3, ![32, 526, 526]⟩
abbrev S32x526 : Shape := ⟨2, ![32, 526]⟩
abbrev S32 : Shape := ⟨1, ![32]⟩

abbrev nBuf : Space → Nat
  | .hbm => 28
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S_, .i32⟩
  | .hbm, ⟨2, _⟩ => ⟨S32x3x1x512, .f32⟩
  | .hbm, ⟨3, _⟩ => ⟨S32x3x7x512, .f32⟩
  | .hbm, ⟨4, _⟩ => ⟨S32x3x7x512, .f32⟩
  | .hbm, ⟨5, _⟩ => ⟨S32x3x519x512, .f32⟩
  | .hbm, ⟨6, _⟩ => ⟨S32x3x1x512, .f32⟩
  | .hbm, ⟨7, _⟩ => ⟨S32x3x7x512, .f32⟩
  | .hbm, ⟨8, _⟩ => ⟨S32x3x7x512, .f32⟩
  | .hbm, ⟨9, _⟩ => ⟨S32x3x526x512, .f32⟩
  | .hbm, ⟨10, _⟩ => ⟨S32x3x526x1, .f32⟩
  | .hbm, ⟨11, _⟩ => ⟨S32x3x526x7, .f32⟩
  | .hbm, ⟨12, _⟩ => ⟨S32x3x526x7, .f32⟩
  | .hbm, ⟨13, _⟩ => ⟨S32x3x526x519, .f32⟩
  | .hbm, ⟨14, _⟩ => ⟨S32x3x526x1, .f32⟩
  | .hbm, ⟨15, _⟩ => ⟨S32x3x526x7, .f32⟩
  | .hbm, ⟨16, _⟩ => ⟨S32x3x526x7, .f32⟩
  | .hbm, ⟨17, _⟩ => ⟨S32x3x526x526, .f32⟩
  | .hbm, ⟨18, _⟩ => ⟨S_, .f32⟩
  | .hbm, ⟨19, _⟩ => ⟨S32x526x526, .f32⟩
  | .hbm, ⟨20, _⟩ => ⟨S_, .f32⟩
  | .hbm, ⟨21, _⟩ => ⟨S32x526, .f32⟩
  | .hbm, ⟨22, _⟩ => ⟨S_, .f32⟩
  | .hbm, ⟨23, _⟩ => ⟨S32, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_cst_1 : Ref sig .tc := ⟨.hbm, 22, rfl⟩
abbrev main_v3 : Ref sig .tc := ⟨.hbm, 23, rfl⟩
abbrev main_cst_2 : Ref sig .tc := ⟨.hbm, 24, rfl⟩
abbrev main_v4 : Ref sig .tc := ⟨.hbm, 25, rfl⟩
abbrev main_cst_3 : Ref sig .tc := ⟨.hbm, 26, rfl⟩
abbrev main_v5 : Ref sig .tc := ⟨.hbm, 27, rfl⟩

abbrev nD : Nat := 1
abbrev τ : Topo := Topo.v7x

variable {F : FTy → Type} [FloatOps F]

class Facts₀ : Prop where
  slices_S32x3x512x512_S32x3x1x512_0_0_0_0 : S32x3x512x512.Slices ![0, 0, 0, 0] S32x3x1x512
  slices_S32x3x512x512_S32x3x7x512_0_0_1_0 : S32x3x512x512.Slices ![0, 0, 1, 0] S32x3x7x512
  concatenates_S32x3x7x512_S32x3x512x512_S32x3x519x512_d2 : Shape.Concatenates [S32x3x7x512, S32x3x512x512] S32x3x519x512 2
  slices_S32x3x519x512_S32x3x1x512_0_0_518_0 : S32x3x519x512.Slices ![0, 0, 518, 0] S32x3x1x512
  slices_S32x3x519x512_S32x3x7x512_0_0_511_0 : S32x3x519x512.Slices ![0, 0, 511, 0] S32x3x7x512
  concatenates_S32x3x519x512_S32x3x7x512_S32x3x526x512_d2 : Shape.Concatenates [S32x3x519x512, S32x3x7x512] S32x3x526x512 2
  slices_S32x3x526x512_S32x3x526x1_0_0_0_0 : S32x3x526x512.Slices ![0, 0, 0, 0] S32x3x526x1
  slices_S32x3x526x512_S32x3x526x7_0_0_0_1 : S32x3x526x512.Slices ![0, 0, 0, 1] S32x3x526x7
  concatenates_S32x3x526x7_S32x3x526x512_S32x3x526x519_d3 : Shape.Concatenates [S32x3x526x7, S32x3x526x512] S32x3x526x519 3
  slices_S32x3x526x519_S32x3x526x1_0_0_0_518 : S32x3x526x519.Slices ![0, 0, 0, 518] S32x3x526x1
  slices_S32x3x526x519_S32x3x526x7_0_0_0_511 : S32x3x526x519.Slices ![0, 0, 0, 511] S32x3x526x7
  concatenates_S32x3x526x519_S32x3x526x7_S32x3x526x526_d3 : Shape.Concatenates [S32x3x526x519, S32x3x526x7] S32x3x526x526 3
  reducesTo_S32x3x526x526_S32x526x526_d1 : S32x3x526x526.ReducesTo [1] S32x526x526
  h_S_ : 0 < S_.numel
  reducesTo_S32x526x526_S32x526_d1 : S32x526x526.ReducesTo [1] S32x526
  reducesTo_S32x526_S32_d1 : S32x526.ReducesTo [1] S32
  reducesTo_S32_S_d0 : S32.ReducesTo [0] S_

variable [Facts₀]

class Facts : Prop extends Facts₀ where

variable [Facts]
-- ==== Proof.KernelPieces.lean ====
/-
  What each control case of the kernel body leaves behind, as values: the scratch accumulator after the body, and
  (at an H-tile's last point) the output block, are the body's one arithmetic payload `k0_pay2` of the input block
  and the accumulator the body started from — at an H-tile's first point that accumulator is the reset value `k0_pay1`.

  Every store and load of the body goes through the whole-shape rectangle at zero offsets, so a load reads the
  buffer's contents, the last store leaves its payload, and a load after a store reads that store's payload.
-/
import proofs.«167451_j72593537237683_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- The zero offsets of a rank-2 block, however spelt. -/
private theorem hz : (![0, 0] : Fin 2 → Nat) = fun _ => 0 := funext fun a => by fin_cases a <;> rfl

/-- The zero offsets of a rank-4 block, however spelt. -/
private theorem hz4 : (![0, 0, 0, 0] : Fin 4 → Nat) = fun _ => 0 := funext fun a => by fin_cases a <;> rfl

/-- At an H-tile's first point the scratch ends with two whole-block stores: the reset value, then the accumulate
    step. The later store wins, and its accumulator operand is the whole-block load of what the reset store left,
    that is the reset value itself. -/
theorem scratch_A (c : Dev nD) (i : grid0.Coords) (arg2 : Memref sig .tc .vmem S8x3x128x512 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i)
    (x0 : Vec F S8x3x128x512 .f32) :
    sout0_A_0 c i arg2 harg2 arg3 harg3 arg4 harg4 hc0 hc1 x0 = k0_pay2 x0 (k0_pay1 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S8x128) hz, View.readCov_unit_zero (S := S8x128) _ hz]
  simp only [View.readAt_eq_ld, harg2.read_unread, View.ld_unit_zero (S := S8x3x128x512) hz4]

/-- At a middle point the scratch ends with one whole-block store of the accumulate step, whose two operands are
    whole-block loads of the input block and of the accumulator the point started from. -/
theorem scratch_B (c : Dev nD) (i : grid0.Coords) (arg2 : Memref sig .tc .vmem S8x3x128x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : ¬cond0_1 i)
    (x0 : Vec F S8x3x128x512 .f32) (xs0 : Vec F S8x128 .f32) :
    sout0_B_0 c i arg2 harg2 arg3 harg3 arg4 harg4 hc0 hc1 x0 xs0 = k0_pay2 x0 xs0 := by
  unfold sout0_B_0
  rw [View.read_writes_eq_canon _ _ _ (scover0_B_0 c i arg2 harg2 arg3 harg3 arg4 harg4 hc0 hc1 x0 xs0)]
  unfold kernelRun0_B
  dsimp only
  rw [View.canon_unit_zero hz]
  simp only [View.readAt_eq_ld, harg2.read_unread, harg4.read_unread, View.ld_unit_zero (S := S8x128) hz,
    View.ld_unit_zero (S := S8x3x128x512) hz4]

/-- At an H-tile's last point the scratch is treated as at a middle point: one whole-block store of the accumulate
    step over whole-block loads. -/
theorem scratch_C (c : Dev nD) (i : grid0.Coords) (arg2 : Memref sig .tc .vmem S8x3x128x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 : Vec F S8x3x128x512 .f32) (xs0 : Vec F S8x128 .f32) :
    sout0_C_0 c i arg2 harg2 arg3 harg3 arg4 harg4 hc0 hc1 x0 xs0 = k0_pay2 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz]
  simp only [View.readAt_eq_ld, harg2.read_unread, harg4.read_unread, View.ld_unit_zero (S := S8x128) hz,
    View.ld_unit_zero (S := S8x3x128x512) hz4]

/-- At an H-tile's last point the output block ends with one whole-block store of what a whole-block load of the
    scratch reads after the accumulate store, that is the accumulate step's value. -/
theorem out_C (c : Dev nD) (i : grid0.Coords) (arg2 : Memref sig .tc .vmem S8x3x128x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 : Vec F S8x3x128x512 .f32) (xs0 : Vec F S8x128 .f32) :
    out0_C_1 c i arg2 harg2 arg3 harg3 arg4 harg4 hc0 hc1 x0 xs0 = k0_pay2 x0 xs0 := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz, View.readCov_unit_zero (S := S8x128) _ hz]
  simp only [View.readAt_eq_ld, harg2.read_unread, harg4.read_unread, View.ld_unit_zero (S := S8x128) hz,
    View.ld_unit_zero (S := S8x3x128x512) hz4]

end Cert.KernelIdeal.Pieces

end
-- ==== Proof.BatchMin.lean ====
/-
  The mathematics both programs compute, stated once over plain index functions.

  For an image array `X` of shape [32, 3, 512, 512] (batch, channel, row, column) over the extended reals, the
  per-batch least entry is `bmin X b = ⨅ {i | i 0 = b}, X i`, and the result is the mean of these 32 infima.
  A minimum over a finite family is characterised by its lower bounds: `z ≤ min ↔ z ≤ every member`
  (`le_bmin_iff`, `eq_bmin`). A min-reduction of an array along some axes, started from `+∞`, has at a result
  index `j` exactly this property over the source indices that drop to `j` (`le_hostReduce_min_iff` for a
  `stablehlo.reduce`, `le_multiReduction_min_iff` for a `vector.multi_reduction`), whatever the order the fold runs in.
-/
import Idealize.ShloMosaic.PureOps.Ideal
import Idealize.ShloMosaic.PureOps.Ideal.Laws
import Idealize.ShloMosaic.PureOps.Reduce
import Idealize.ShloMosaic.Lib.ValueIdx

noncomputable section

namespace BatchMin

open Idealize.ShloMosaic Idealize.ShloMosaic.ValueIdx

/-- The image array's shape, the per-batch vector's, and the scalar's. -/
abbrev SX : Shape := ⟨4, ![32, 3, 512, 512]⟩
abbrev SB : Shape := ⟨1, ![32]⟩
abbrev S0 : Shape := ⟨0, ![]⟩

/-- The pattern `0x7F800000` is `+∞`, the top of the extended reals. -/
theorem ofBits_inf : Ideal.ofBits .f32 0x7F800000#32 = (⊤ : EReal) := by simp [Ideal.ofBits, Ideal.ieee]

/-- The least entry of batch `b`: the infimum of `X` over the indices whose batch coordinate is `b`. -/
def bmin (X : SX.Idx → EReal) (b : Fin 32) : EReal := ⨅ i : SX.Idx, ⨅ (_ : (i 0).val = b.val), X i

/-- Its lower bounds are the common lower bounds of the batch's entries. -/
theorem le_bmin_iff (X : SX.Idx → EReal) (b : Fin 32) (z : EReal) :
    z ≤ bmin X b ↔ ∀ i : SX.Idx, (i 0).val = b.val → z ≤ X i := by
  unfold bmin
  exact le_iInf₂_iff

/-- A value with those lower bounds is the batch's least entry. -/
theorem eq_bmin {X : SX.Idx → EReal} {b : Fin 32} {r : EReal}
    (h : ∀ z : EReal, z ≤ r ↔ ∀ i : SX.Idx, (i 0).val = b.val → z ≤ X i) : r = bmin X b :=
  eq_of_forall_le_iff fun z => (h z).trans (le_bmin_iff X b z).symm

/-- The vector of the 32 per-batch least entries. -/
def bminV (X : SX.Idx → EReal) : FVec Ideal SB .f32 := fun b => bmin X (b 0)

theorem hred : SB.ReducesTo [0] S0 := by decide
theorem hS0 : 0 < S0.numel := by decide

/-- The mean over the batch as both programs end: the sum from zero, divided by 32. -/
def meanTail (v : FVec Ideal SB .f32) : FVec Ideal S0 .f32 :=
  Host.divf (F := Ideal) (Host.reduceAdd (F := Ideal) v (constant (F := Ideal) S0 .f32 0x00000000#32) hred hS0)
    (constant (F := Ideal) S0 .f32 0x42000000#32)

/-- A fold of `min` from `+∞`: its lower bounds are the common lower bounds of the members. -/
theorem le_fold_min_top_iff {ι : Type} (S : Finset ι) (f : ι → EReal) (z : EReal) :
    z ≤ S.fold (FloatOps.minimumf (F := Ideal) (φ := .f32)) (⊤ : EReal) f ↔ ∀ i ∈ S, z ≤ f i := by
  have e : S.fold (FloatOps.minimumf (F := Ideal) (φ := .f32)) (⊤ : EReal) f = S.fold min (⊤ : EReal) f := rfl
  rw [e, Finset.le_fold_min]
  exact ⟨fun h => h.2, fun h => ⟨le_top, h⟩⟩

/-- A host min-reduction from `+∞`, at a result index `j`: its lower bounds are the common lower bounds of the
    source entries whose index drops to `j`. -/
theorem le_hostReduce_min_iff {s t u : Shape} {axes : List (Fin s.rank)} (x : s.Idx → EReal) (init : u.Idx → EReal)
    (h : s.ReducesTo axes t) (hu : 0 < u.numel) (hinit : init (Shape.Idx.first hu) = ⊤) (j : t.Idx) (z : EReal) :
    z ≤ Host.reduce (FloatOps.minimumf (F := Ideal) (φ := .f32)) x init h hu j ↔ ∀ i : s.Idx, h.drop i = j → z ≤ x i := by
  rw [Host.reduce_eq_fold, hinit, le_fold_min_top_iff]
  simp only [Finset.mem_filter, Finset.mem_univ, true_and]

/-- A kernel's `vector.multi_reduction <minimumf>` from the accumulator `+∞`, at a result index `j`: the same. -/
theorem le_multiReduction_min_iff {s t : Shape} {axes : List (Fin s.rank)} (src : FVec Ideal s .f32)
    (h : s.Reduces axes t) (hφ : FKind.Formats .f32) (hacc : (0x7F800000#32 : BitVec 32) = FKind.minimumf.neutral .f32 hφ)
    (j : t.Idx) (z : EReal) :
    z ≤ multiReduction (F := Ideal) .minimumf axes t src 0x7F800000#32 h hφ hacc j ↔ ∀ i : s.Idx, h.drop i = j → z ≤ src i := by
  rw [multiReduction_minimumf_eq_fold, Ideal.ofBits_def, ofBits_inf, le_fold_min_top_iff]
  simp only [Finset.mem_filter, Finset.mem_univ, true_and]

end BatchMin

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KernelPay.lean ====
/-
  The body's arithmetic at the extended reals: the reset value is +∞ everywhere, and the accumulated value at row `r`
  (any lane) is the lesser of the old accumulator there and the least entry of the input block's row `r` —
  stated by its lower bounds.

  The reset value is a broadcast of the scalar `+∞`. The accumulate step is a pointwise `min` of the accumulator with
  a column broadcast along the lanes, the column being the vector of row minima: `z ≤ min a b ↔ z ≤ a ∧ z ≤ b` splits
  off the accumulator, and the row minimum — three nested min-reductions from `+∞` — has as lower bounds the common
  lower bounds of the entries whose index drops, three times over, to the row.
-/
import proofs.«167451_j72593537237683_1_alg».proof.Proof.Gen.KernelIdeal.Skeleton
import proofs.«167451_j72593537237683_1_alg».proof.Proof.BatchMin
import proofs.«167451_j72593537237683_1_alg».proof.Proof.LibKeepdims

noncomputable section

namespace Cert.KernelIdeal.Pay

open Idealize.ShloMosaic Idealize.ShloMosaic.ValueIdx Cert.KernelIdeal Cert.KernelIdeal.Gen

/-- Dropping the channel axis, then the row axis, then the column axis of a block index keeps its batch coordinate. -/
private theorem drop3_zero (i : S8x3x128x512.Idx) :
    ((reduces_S8x512_S8.drop (reduces_S8x128x512_S8x512.drop (reduces_S8x3x128x512_S8x128x512.drop i))) 0).val
      = (i 0).val :=
  (Shape.Reduces.drop_apply_val_of_eq reduces_S8x512_S8 _ 0 0).trans
    ((Shape.Reduces.drop_apply_val_of_eq reduces_S8x128x512_S8x512 _ 0 0).trans
      (Shape.Reduces.drop_apply_val_of_eq reduces_S8x3x128x512_S8x128x512 i 0 0))

/-- The three nested min-reductions from `+∞` (over the channels, then the rows, then the columns) at batch row `r`:
    the lower bounds of the result are the common lower bounds of the block's entries whose batch coordinate is `r`.
    Each reduction is opened by its lower-bound characterisation; the chain of dropped indices keeps coordinate 0. -/
private theorem le_min3_iff (x0 : Vec Ideal S8x3x128x512 .f32) (r : Fin 8) (z : EReal)
    (hφ : FKind.Formats .f32) (hacc : (0x7F800000#32 : BitVec 32) = FKind.minimumf.neutral .f32 hφ) :
    z ≤ multiReduction (F := Ideal) .minimumf [1] S8
          (multiReduction (F := Ideal) .minimumf [1] S8x512
            (multiReduction (F := Ideal) .minimumf [1] S8x128x512 x0 0x7F800000#32 reduces_S8x3x128x512_S8x128x512 hφ hacc)
            0x7F800000#32 reduces_S8x128x512_S8x512 hφ hacc)
          0x7F800000#32 reduces_S8x512_S8 hφ hacc (ix1 r)
      ↔ ∀ i : S8x3x128x512.Idx, (i 0).val = r.val → z ≤ x0 i := by
  constructor
  · intro h i hi
    have h3 := (BatchMin.le_multiReduction_min_iff _ reduces_S8x512_S8 hφ hacc (ix1 r) z).mp h
    have e3 : reduces_S8x512_S8.drop (reduces_S8x128x512_S8x512.drop (reduces_S8x3x128x512_S8x128x512.drop i)) = ix1 r :=
      (eq_ix1 _).trans (congrArg ix1 (Fin.ext ((drop3_zero i).trans hi)))
    have h2 := (BatchMin.le_multiReduction_min_iff _ reduces_S8x128x512_S8x512 hφ hacc _ z).mp (h3 _ e3)
    exact (BatchMin.le_multiReduction_min_iff _ reduces_S8x3x128x512_S8x128x512 hφ hacc _ z).mp (h2 _ rfl) i rfl
  · intro h
    refine (BatchMin.le_multiReduction_min_iff _ reduces_S8x512_S8 hφ hacc (ix1 r) z).mpr fun i2 e2 => ?_
    refine (BatchMin.le_multiReduction_min_iff _ reduces_S8x128x512_S8x512 hφ hacc i2 z).mpr fun i1 e1 => ?_
    refine (BatchMin.le_multiReduction_min_iff _ reduces_S8x3x128x512_S8x128x512 hφ hacc i1 z).mpr fun i e0 => ?_
    subst e0; subst e1
    exact h i ((drop3_zero i).symm.trans (congrArg (fun j : S8.Idx => (j 0).val) e2))

/-- The reset block is `+∞` at every index: a broadcast of the scalar whose pattern is `0x7F800000`. -/
theorem pay1_apply (j : S8x128.Idx) : k0_pay1 (F := Ideal) j = (⊤ : EReal) := by
  unfold k0_pay1
  rw [shapeCast_self, broadcast_apply]
  exact BatchMin.ofBits_inf

theorem le_pay2_iff (x0 : Vec Ideal S8x3x128x512 .f32) (acc : Vec Ideal S8x128 .f32) (r : Fin 8) (l : Fin 128) (z : EReal) :
    z ≤ k0_pay2 (F := Ideal) x0 acc (ix2 r l)
      ↔ z ≤ acc (ix2 r l) ∧ ∀ i : S8x3x128x512.Idx, (i 0).val = r.val → z ≤ x0 i := by
  unfold k0_pay2
  dsimp only
  rw [shapeCast_self, minimumf_apply, le_min_iff]
  refine and_congr Iff.rfl ?_
  rw [Cert.Lib.Keepdims.broadcastTo_a1_ab_apply, shapeCast_self, Cert.Lib.Keepdims.shapeCast_a_a1_apply]
  exact le_min3_iff x0 r z _ _

end Cert.KernelIdeal.Pay

end
-- ==== Proof.KernelInv.lean ====
/-
  What the kernel's carried accumulator and its output blocks hold, point by point, at the extended reals.

  The grid is 4 batch chunks × 4 row tiles, in that order: point `n` works on batch rows `8·(n/4) … 8·(n/4)+7` and
  image rows `128·(n%4) … 128·(n%4)+127`. The accumulator is reset to +∞ at a chunk's first tile and then lowered, at
  every tile, to the least entry of the tile's block row by row. So after point `n` the accumulator's row `r` (every
  lane alike) has exactly the lower bounds of the image's entries of batch `8·(n/4)+r` in the rows seen so far,
  `< 128·(n%4+1)` (`acc_inv`, by induction on the point); at a chunk's last tile all 512 rows have been seen, and the
  output block written there is, at row `r`, the least entry of batch `8·(n/4)+r` (`out_row`).
-/
import proofs.«167451_j72593537237683_1_alg».proof.Proof.Gen.KernelIdeal.Frame
import proofs.«167451_j72593537237683_1_alg».proof.Proof.KernelPieces
import proofs.«167451_j72593537237683_1_alg».proof.Proof.KernelPay
import proofs.«167451_j72593537237683_1_alg».proof.Proof.BatchMin
import Idealize.ShloMosaic.Lib.Pipeline.Value

noncomputable section

namespace Cert.KernelIdeal.Inv

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The image array as the region finds it, and the block of it the body loads at point `t`. -/
abbrev xarr (c : Dev nD) : Vec Ideal S32x3x512x512 .f32 := V m c main_arg0
abbrev xblk (c : Dev nD) (t : Fin cfg0.N) : Vec Ideal S8x3x128x512 .f32 := iblk m c 0 t

/-- The input window's block index at point `t`: batch chunk `t / 4`, row tile `t % 4`, whole channels and columns. -/
theorem idx_in : ∀ t : Fin cfg0.N, win0_0.index t (0 : Fin 4) = t.val / 4 ∧ win0_0.index t (1 : Fin 4) = 0
    ∧ win0_0.index t (2 : Fin 4) = t.val % 4 ∧ win0_0.index t (3 : Fin 4) = 0 :=
  (by decide +kernel : ∀ t : Fin grid0.N, _)

/-- The block at point `t`, at `y`, is the image at batch `8·(t/4) + y₀`, channel `y₁`, row `128·(t%4) + y₂`, column `y₃`. -/
theorem xblk_apply (c : Dev nD) (t : Fin cfg0.N) (y : S8x3x128x512.Idx) (i : S32x3x512x512.Idx)
    (h0 : (i 0).val = 8 * (t.val / 4) + (y 0).val) (h1 : (i 1).val = (y 1).val)
    (h2 : (i 2).val = 128 * (t.val % 4) + (y 2).val) (h3 : (i 3).val = (y 3).val) :
    xblk m c t y = xarr m c i := by
  obtain ⟨e0, e1, e2, e3⟩ := idx_in t
  show iblk m c 0 t y = V m c main_arg0 i
  unfold iblk
  rw [View.read_apply]
  show V m c main_arg0 (((cfg0.win 0).blk t).view.emb y) = V m c main_arg0 i
  refine congrArg (V m c main_arg0) ?_
  funext a
  apply Fin.ext
  match a with
  | ⟨0, _⟩ => show win0_0.index t (0 : Fin 4) * 8 + 1 * (y 0).val = (i 0).val; omega
  | ⟨1, _⟩ => show win0_0.index t (1 : Fin 4) * 3 + 1 * (y 1).val = (i 1).val; omega
  | ⟨2, _⟩ => show win0_0.index t (2 : Fin 4) * 128 + 1 * (y 2).val = (i 2).val; omega
  | ⟨3, _⟩ => show win0_0.index t (3 : Fin 4) * 512 + 1 * (y 3).val = (i 3).val; omega

/-- Lower bounds of the block's row `r` are lower bounds of the image's entries of batch `8·(t/4)+r` in the tile's rows. -/
theorem block_iff (c : Dev nD) (t : Fin cfg0.N) (r : Fin 8) (z : EReal) :
    (∀ y : S8x3x128x512.Idx, (y 0).val = r.val → z ≤ xblk m c t y)
      ↔ ∀ i : S32x3x512x512.Idx, (i 0).val = 8 * (t.val / 4) + r.val → 128 * (t.val % 4) ≤ (i 2).val →
          (i 2).val < 128 * (t.val % 4 + 1) → z ≤ xarr m c i := by
  have hN : t.val < 16 := lt_of_lt_of_eq t.isLt (show cfg0.N = 16 from N_0)
  constructor
  · intro h i hi0 hlo hhi
    have hi1 : (i 1).val < 3 := (i 1).isLt
    have hi3 : (i 3).val < 512 := (i 3).isLt
    have hr : r.val < 8 := r.isLt
    have key := h (ix4 r (⟨(i 1).val, hi1⟩ : Fin 3) (⟨(i 2).val - 128 * (t.val % 4), by omega⟩ : Fin 128)
      (⟨(i 3).val, hi3⟩ : Fin 512)) rfl
    rwa [xblk_apply m c t _ i (by show (i 0).val = 8 * (t.val / 4) + r.val; exact hi0) rfl
      (by show (i 2).val = 128 * (t.val % 4) + ((i 2).val - 128 * (t.val % 4)); omega) rfl] at key
  · intro h y hy
    have hy0 : (y 0).val < 8 := (y 0).isLt
    have hy1 : (y 1).val < 3 := (y 1).isLt
    have hy2 : (y 2).val < 128 := (y 2).isLt
    have hy3 : (y 3).val < 512 := (y 3).isLt
    rw [xblk_apply m c t y (ix4 (⟨8 * (t.val / 4) + (y 0).val, by omega⟩ : Fin 32) (⟨(y 1).val, hy1⟩ : Fin 3)
      (⟨128 * (t.val % 4) + (y 2).val, by omega⟩ : Fin 512) (⟨(y 3).val, hy3⟩ : Fin 512)) rfl rfl rfl rfl]
    refine h _ ?_ ?_ ?_
    · show 8 * (t.val / 4) + (y 0).val = 8 * (t.val / 4) + r.val; omega
    · show 128 * (t.val % 4) ≤ 128 * (t.val % 4) + (y 2).val; omega
    · show 128 * (t.val % 4) + (y 2).val < 128 * (t.val % 4 + 1); omega

/-- At a chunk's first tile the accumulator ends at the accumulate step over the reset value; -/
theorem acc_first (c : Dev nD) (t : Fin cfg0.N) (h0 : t.val % 4 = 0) :
    (outsAt0 m c t.val t.isLt).2 = k0_pay2 (xblk m c t) (k0_pay1 (F := Ideal)) := by
  have h1 : ¬t.val % 4 = 3 := by omega
  rw [outsAt0_A m c t h0 h1]
  dsimp only
  exact Pieces.scratch_A c (grid0.coords t) (ms0_0 t) (hs0_0 t) (ms0_1 t) (hs0_1 t) scM0_0 (Memref.isWhole_whole _) _ _
    (iblk m c 0 t)

/-- at every other tile at the accumulate step over what the point before left; -/
theorem acc_next (c : Dev nD) (t : Fin cfg0.N) (h0 : ¬t.val % 4 = 0) :
    (outsAt0 m c t.val t.isLt).2
      = k0_pay2 (xblk m c t) (outsAt0 m c (t.val - 1) (Nat.lt_of_le_of_lt (Nat.sub_le _ _) t.isLt)).2 := by
  by_cases h1 : t.val % 4 = 3
  · rw [outsAt0_C m c t h0 h1]
    dsimp only
    exact Pieces.scratch_C c (grid0.coords t) (ms0_0 t) (hs0_0 t) (ms0_1 t) (hs0_1 t) scM0_0 (Memref.isWhole_whole _) _ _
      (iblk m c 0 t) (outsAt0 m c (t.val - 1) (Nat.lt_of_le_of_lt (Nat.sub_le _ _) t.isLt)).2
  · rw [outsAt0_B m c t h0 h1]
    dsimp only
    exact Pieces.scratch_B c (grid0.coords t) (ms0_0 t) (hs0_0 t) (ms0_1 t) (hs0_1 t) scM0_0 (Memref.isWhole_whole _) _ _
      (iblk m c 0 t) (outsAt0 m c (t.val - 1) (Nat.lt_of_le_of_lt (Nat.sub_le _ _) t.isLt)).2

/-- and at a chunk's last tile the output block is that same value. -/
theorem out_last (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (Pieces.out_C c (grid0.coords t) (ms0_0 t) (hs0_0 t) (ms0_1 t) (hs0_1 t) scM0_0 (Memref.isWhole_whole _) _ _
      (iblk m c 0 t) (outsAt0 m c (t.val - 1) (Nat.lt_of_le_of_lt (Nat.sub_le _ _) t.isLt)).2).trans
    (Pieces.scratch_C c (grid0.coords t) (ms0_0 t) (hs0_0 t) (ms0_1 t) (hs0_1 t) scM0_0 (Memref.isWhole_whole _) _ _
      (iblk m c 0 t) (outsAt0 m c (t.val - 1) (Nat.lt_of_le_of_lt (Nat.sub_le _ _) t.isLt)).2).symm

/-- THE INVARIANT: after point `n` the accumulator's row `r`, at any lane, has the lower bounds of the image's entries
    of batch `8·(n/4)+r` in the rows below `128·(n%4+1)`. -/
theorem acc_inv (c : Dev nD) : ∀ (n : ℕ) (hn : n < cfg0.N) (r : Fin 8) (l : Fin 128) (z : EReal),
    z ≤ (outsAt0 m c n hn).2 (ix2 r l)
      ↔ ∀ i : S32x3x512x512.Idx, (i 0).val = 8 * (n / 4) + r.val → (i 2).val < 128 * (n % 4 + 1) → z ≤ xarr m c i := by
  intro n
  induction n with
  | zero =>
    intro hn r l z
    rw [acc_first m c ⟨0, hn⟩ rfl, Pay.le_pay2_iff, Pay.pay1_apply, block_iff]
    constructor
    · rintro ⟨-, h⟩ i hi0 hi2
      exact h i hi0 (Nat.zero_le _) hi2
    · intro h
      exact ⟨le_top, fun i hi0 _ hi2 => h i hi0 hi2⟩
  | succ k ih =>
    intro hn r l z
    by_cases h0 : (k + 1) % 4 = 0
    · rw [acc_first m c ⟨k + 1, hn⟩ h0, Pay.le_pay2_iff, Pay.pay1_apply, block_iff]
      constructor
      · rintro ⟨-, h⟩ i hi0 hi2
        exact h i hi0 (by show 128 * ((k + 1) % 4) ≤ (i 2).val; omega) hi2
      · intro h
        exact ⟨le_top, fun i hi0 _ hi2 => h i hi0 hi2⟩
    · rw [acc_next m c ⟨k + 1, hn⟩ h0, Pay.le_pay2_iff, block_iff]
      have ihk := ih (Nat.lt_of_succ_lt hn) r l z
      have e : (outsAt0 m c ((⟨k + 1, hn⟩ : Fin cfg0.N).val - 1) (Nat.lt_of_le_of_lt (Nat.sub_le _ _) (⟨k + 1, hn⟩ : Fin cfg0.N).isLt)).2
          = (outsAt0 m c k (Nat.lt_of_succ_lt hn)).2 := rfl
      rw [e, ihk]
      show ((∀ i : S32x3x512x512.Idx, (i 0).val = 8 * (k / 4) + r.val → (i 2).val < 128 * (k % 4 + 1) → z ≤ xarr m c i)
          ∧ ∀ i : S32x3x512x512.Idx, (i 0).val = 8 * ((k + 1) / 4) + r.val → 128 * ((k + 1) % 4) ≤ (i 2).val →
              (i 2).val < 128 * ((k + 1) % 4 + 1) → z ≤ xarr m c i)
        ↔ ∀ i : S32x3x512x512.Idx, (i 0).val = 8 * ((k + 1) / 4) + r.val → (i 2).val < 128 * ((k + 1) % 4 + 1) → z ≤ xarr m c i
      constructor
      · rintro ⟨ha, hb⟩ i hi0 hi2
        by_cases hlt : (i 2).val < 128 * ((k + 1) % 4)
        · exact ha i (by omega) (by omega)
        · exact hb i hi0 (by omega) hi2
      · intro h
        exact ⟨fun i hi0 hi2 => h i (by omega) (by omega), fun i hi0 _ hi2 => h i hi0 hi2⟩

/-- At a chunk's last tile the output block's row `r`, at any lane, is the least entry of batch `8·(t/4)+r`. -/
theorem out_row (c : Dev nD) (t : Fin cfg0.N) (h3 : t.val % 4 = 3) (r : Fin 8) (l : Fin 128) (b : Fin 32)
    (hb : b.val = 8 * (t.val / 4) + r.val) :
    (outsAt0 m c t.val t.isLt).1 (ix2 r l) = BatchMin.bmin (xarr m c) b := by
  rw [out_last m c t h3]
  refine BatchMin.eq_bmin fun z => ?_
  rw [acc_inv m c t.val t.isLt r l z]
  constructor
  · intro h i hi
    have hi2 : (i 2).val < 512 := (i 2).isLt
    exact h i (by omega) (by omega)
  · intro h i hi _
    exact h i (by omega)

end Cert.KernelIdeal.Inv

end
-- ==== Proof.KernelValue.lean ====
/-
  The kernel's result. The output array [32, 128] is written back once per batch chunk, at the chunk's last row tile,
  eight rows at a time; those four blocks tile it, so after the run its row `b` holds, at every lane, the least entry
  of batch `b` (`final_out`). The host lines after the region take column 0, sum the 32 values from zero and divide
  by 32: the mean of the per-batch least entries (`tail_eq`, `run`).
-/
import proofs.«167451_j72593537237683_1_alg».proof.Proof.KernelInv
import Idealize.ShloMosaic.Lib.StableHlo.Run

noncomputable section

namespace Cert.KernelIdeal.KValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- What the output array ends holding: row `b`, at any lane, the least entry of batch `b`. -/
def outG (c : Dev nD) : Vec Ideal S32x128 .f32 := fun j => BatchMin.bmin (Inv.xarr m c) ⟨(j 0).val, (j 0).isLt⟩

/-- The output window's block index at point `t`: batch chunk `t / 4`, the one lane block. -/
theorem idx_out : ∀ t : Fin cfg0.N, win0_1.index t (0 : Fin 2) = t.val / 4 ∧ win0_1.index t (1 : Fin 2) = 0 :=
  (by decide +kernel : ∀ t : Fin grid0.N, _)

/-- What a chunk's last tile writes back is its block of `outG`. -/
theorem flushed_eq (c : Dev nD) (t : Fin cfg0.N) (hf : (cfg0.win 1).flush t = true) :
    (dats m 0 c).flushed 1 t = ((cfg0.win 1).blk t).view.read (Elt Ideal) (outG m c) := by
  have h3 : t.val % 4 = 3 := (flush0_1 t).mp hf
  obtain ⟨e0, e1⟩ := idx_out t
  have hN : t.val < 16 := lt_of_lt_of_eq t.isLt (show cfg0.N = 16 from N_0)
  show (cfg0.win 1).cut (grid0.coords t) ((dats m 0 c).after 1 t) = _
  rw [after0_1]
  funext j
  show (outsAt0 m c t.val t.isLt).1 j = outG m c (((cfg0.win 1).blk t).view.emb j)
  obtain ⟨r, l, rfl⟩ : ∃ (r : Fin 8) (l : Fin 128), j = ix2 r l := ⟨j 0, j 1, eq_ix2 j⟩
  have hr : r.val < 8 := r.isLt
  rw [Inv.out_row m c t h3 r l ⟨8 * (t.val / 4) + r.val, by omega⟩ rfl]
  unfold outG
  refine congrArg (BatchMin.bmin (Inv.xarr m c)) (Fin.ext ?_)
  show 8 * (t.val / 4) + r.val = win0_1.index t (0 : Fin 2) * 8 + 1 * r.val
  omega

/-- Every index of the output array lies in the block some chunk's last tile writes back. -/
theorem cover (i : S32x128.Idx) :
    ∃ t : Fin cfg0.N, (cfg0.win 1).flush t = true ∧ i ∈ ((cfg0.win 1).blk t).view.set := by
  have hi0 : (i 0).val < 32 := (i 0).isLt
  have hi1 : (i 1).val < 128 := (i 1).isLt
  have hN : cfg0.N = 16 := N_0
  obtain ⟨t, ht⟩ : ∃ t : Fin cfg0.N, t.val = 4 * ((i 0).val / 8) + 3 := ⟨⟨4 * ((i 0).val / 8) + 3, by omega⟩, rfl⟩
  obtain ⟨e0, e1⟩ := idx_out t
  refine ⟨t, (flush0_1 t).mpr (by omega), ?_⟩
  show i ∈ ((View.whole main_v0).slice (win0_1.rect t)).set
  rw [View.set_slice_whole, Rect.mem_set_unit]
  intro a
  match a with
  | ⟨0, _⟩ =>
    show win0_1.index t (0 : Fin 2) * 8 ≤ (i 0).val ∧ (i 0).val < win0_1.index t (0 : Fin 2) * 8 + 8
    omega
  | ⟨1, _⟩ =>
    show win0_1.index t (1 : Fin 2) * 128 ≤ (i 1).val ∧ (i 1).val < win0_1.index t (1 : Fin 2) * 128 + 128
    omega

/-- So the output array ends holding `outG`. -/
theorem final_out (c : Dev nD) : (dats m 0 c).arrAt 1 cfg0.N = outG m c :=
  (dats m 0 c).arrAt_eq_of_cover 1 (outG m c) (flushed_eq m c) cover

/-- Column 0 of `outG`, as a vector, is the vector of per-batch least entries. -/
theorem col0 (c : Dev nD) (hs : S32x128.Slices ![0, 0] S32x1) (hc : S32x1.ShapeCasts S32) :
    shapeCast S32 (extractStridedSlice S32x1 ![0, 0] (outG m c) hs) hc = BatchMin.bminV (Inv.xarr m c) := by
  funext b
  obtain ⟨p, rfl⟩ : ∃ p : Fin 32, b = ix1 p := ⟨b 0, eq_ix1 b⟩
  refine (shapeCast_apply _ hc (ix1 p) (ix2 p (0 : Fin 1)) (by
    rw [Shape.rowMajor_val_two, Shape.rowMajor_val_one]
    show p.val * 1 + 0 = p.val
    omega)).trans ?_
  refine (extractStridedSlice_apply ![0, 0] (outG m c) hs (ix2 p (0 : Fin 1)) (ix2 p (0 : Fin 128)) (fun a => by
    match a with
    | ⟨0, _⟩ => show p.val = 0 + p.val; omega
    | ⟨1, _⟩ => show 0 = 0 + 0; rfl)).trans ?_
  rfl

/-- The host lines after the region leave, in the result buffer, the mean of the per-batch least entries. -/
theorem tail_eq (c : Dev nD) :
    Pipeline.afterTail₀ cfgs (dats m) 0 (V0 m) [hostOps1] c main_v4
      = BatchMin.meanTail (BatchMin.bminV (Inv.xarr m c)) := by
  unfold Pipeline.afterTail₀
  show StableHlo.after hostOps1 _ (Proc.devRef .tc main_v4) = _
  after_results
  have hW : Pipeline.withArrays (cfgs 0).spec c (V0 m c) (fun w => (dats m 0 c).arrAt w (cfgs 0).N)
      (Proc.devRef .tc main_v0) = outG m c :=
    (Pipeline.withArrays_arr spec0 launch0.win.arr_inj c _ _ 1).trans (final_out m c)
  rw [hW]
  show Host.divf (F := Ideal) (Host.reduceAdd (F := Ideal)
      (shapeCast S32 (extractStridedSlice S32x1 ![0, 0] (outG m c) slices_S32x128_S32x1_0_0) shapeCasts_S32x1_S32)
      (constant (F := Ideal) S_ .f32 0x00000000#32) reducesTo_S32_S_d0 h_S_) (constant (F := Ideal) S_ .f32 0x42000000#32) = _
  rw [col0 m c slices_S32x128_S32x1_0_0 shapeCasts_S32x1_S32]
  rfl

/-- The kernel's run, read: every weakly fair execution of its @main ends with the result buffer at the mean of the
    image's per-batch least entries, the image unchanged. -/
theorem run : θ_run defs (onTc (τ := τ) (main (F := Ideal))) ⟨m, fun _ => 0, ρ⟩ fun r => ∀ c : Dev nD,
      r.2.mem ((c.tc : Thread nD τ).loc main_v4)
          = BatchMin.meanTail (BatchMin.bminV (m ((c.tc : Thread nD τ).loc main_arg0)))
      ∧ r.2.mem ((c.tc : Thread nD τ).loc main_arg0) = m ((c.tc : Thread nD τ).loc main_arg0) :=
  (θ_run defs _ _).mono (fun r h c =>
      ⟨((h c).2 main_v4 (Pipeline.mem_restRefs_of main_v4 rfl (fun w => by fin_cases w <;> decide))).trans (tail_eq m c),
        ((h c).1 0).trans (((dats m 0 c).arrAt_in 0 rfl _).trans ((A_eq m c 0).trans (V_main_arg0 m c)))⟩)
    (run_main m ρ)

end Cert.KernelIdeal.KValue

end
-- ==== Proof.RefTerm.lean ====
/-
  The reference's result as ONE term of its argument, operation for operation as its program prints them.

  `jnp.pad(…, mode='reflect')` by 7 on the two image axes is built from slices, reversals and concatenations:
  along an axis of extent `n` the padded axis is  [x₇ … x₁] ++ [x₀ … xₙ₋₁] ++ [xₙ₋₂ … xₙ₋₈]  — seven mirrored entries,
  the axis itself, seven mirrored entries — first on the rows (`padRows`), then on the columns (`padCols`).
  Then three min-reductions from +∞ drop channel, row and column (`mins`), and the mean over the batch ends it.
-/
import proofs.«167451_j72593537237683_1_alg».proof.ReferenceIdeal
import proofs.«167451_j72593537237683_1_alg».proof.Proof.Gen.ReferenceIdeal

noncomputable section

namespace Cert.ReferenceIdeal.RefTerm

open Idealize.ShloMosaic Cert.ReferenceIdeal
open Cert.ReferenceIdeal.Facts₀

variable {F : FTy → Type} [FloatOps F]

/-- The mirrored rows 7 … 1 of the image, above it: [32, 3, 519, 512]. -/
def rowsLo (x : FVec F S32x3x512x512 .f32) : FVec F S32x3x519x512 .f32 :=
  concatenate S32x3x519x512 2
    [⟨S32x3x7x512, Host.reverse [2] (extractStridedSlice S32x3x7x512 ![0, 0, 1, 0] x slices_S32x3x512x512_S32x3x7x512_0_0_1_0)⟩,
     ⟨S32x3x512x512, x⟩] concatenates_S32x3x7x512_S32x3x512x512_S32x3x519x512_d2

/-- … and the mirrored rows 510 … 504 below it: [32, 3, 526, 512]. -/
def padRows (x : FVec F S32x3x512x512 .f32) : FVec F S32x3x526x512 .f32 :=
  concatenate S32x3x526x512 2
    [⟨S32x3x519x512, rowsLo x⟩,
     ⟨S32x3x7x512, Host.reverse [2] (extractStridedSlice S32x3x7x512 ![0, 0, 511, 0] (rowsLo x) slices_S32x3x519x512_S32x3x7x512_0_0_511_0)⟩]
    concatenates_S32x3x519x512_S32x3x7x512_S32x3x526x512_d2

/-- The same on the columns of the row-padded array: the mirrored columns 7 … 1 on the left: [32, 3, 526, 519]. -/
def colsLo (y : FVec F S32x3x526x512 .f32) : FVec F S32x3x526x519 .f32 :=
  concatenate S32x3x526x519 3
    [⟨S32x3x526x7, Host.reverse [3] (extractStridedSlice S32x3x526x7 ![0, 0, 0, 1] y slices_S32x3x526x512_S32x3x526x7_0_0_0_1)⟩,
     ⟨S32x3x526x512, y⟩] concatenates_S32x3x526x7_S32x3x526x512_S32x3x526x519_d3

/-- … and the mirrored columns 510 … 504 on the right: [32, 3, 526, 526]. -/
def padCols (y : FVec F S32x3x526x512 .f32) : FVec F S32x3x526x526 .f32 :=
  concatenate S32x3x526x526 3
    [⟨S32x3x526x519, colsLo y⟩,
     ⟨S32x3x526x7, Host.reverse [3] (extractStridedSlice S32x3x526x7 ![0, 0, 0, 511] (colsLo y) slices_S32x3x526x519_S32x3x526x7_0_0_0_511)⟩]
    concatenates_S32x3x526x519_S32x3x526x7_S32x3x526x526_d3

/-- The reflect-padded image. -/
def padded (x : FVec F S32x3x512x512 .f32) : FVec F S32x3x526x526 .f32 := padCols (padRows x)

/-- The three min-reductions from +∞: over the channel, then the rows, then the columns. -/
def mins (p : FVec F S32x3x526x526 .f32) : FVec F S32 .f32 :=
  Host.reduce FloatOps.minimumf
    (Host.reduce FloatOps.minimumf
      (Host.reduce FloatOps.minimumf p (constant S_ .f32 0x7F800000#32) reducesTo_S32x3x526x526_S32x526x526_d1 h_S_)
      (constant S_ .f32 0x7F800000#32) reducesTo_S32x526x526_S32x526_d1 h_S_)
    (constant S_ .f32 0x7F800000#32) reducesTo_S32x526_S32_d1 h_S_

/-- The reference's result: the mean over the batch of the padded image's per-batch minima. -/
def result (x : FVec F S32x3x512x512 .f32) : FVec F S_ .f32 :=
  Host.divf (Host.reduceAdd (mins (padded x)) (constant S_ .f32 0x00000000#32) reducesTo_S32_S_d0 h_S_)
    (constant S_ .f32 0x42000000#32)

end Cert.ReferenceIdeal.RefTerm

end
-- ==== Proof.RefRun.lean ====
/-
  The reference's run: every weakly fair execution of its @main ends with its result at `RefTerm.result` of the
  argument array, the argument unchanged.

  @main is a straight line of twenty-seven array operations once its calls are read at their call sites: the
  integer zero, the sixteen operations of the reflecting pad (four groups of slice, slice, reversal, concatenation:
  rows above, rows below, columns left, columns right), then for each of the three minima its initial value +∞ and
  the reduction, the zero and the sum over the batch, the constant 32 and the quotient. Running the line, each
  buffer ends at the composition of the operations that lead to it; at the result buffer that composition is
  `RefTerm.result`, spelled out operation for operation.
-/
import proofs.«167451_j72593537237683_1_alg».proof.Proof.RefTerm
import Idealize.ShloMosaic.Lib.StableHlo.Run

noncomputable section

namespace Cert.ReferenceIdeal.RefRun

open Idealize.ShloMosaic Idealize.SL.Sem Cert.ReferenceIdeal Idealize.ShloMosaic.StableHlo
open Cert.ReferenceIdeal.Facts₀

variable {F : FTy → Type} [FloatOps F]

/-- @main's twenty-seven operations in order, the pad and its four reversals read at their call sites: each over
    the buffers its call names. -/
abbrev ops : List (HloOp τ sig (Elt F)) :=
  [ nullary main_c (constantI S_ 32 0#32),
    -- the pad, rows: the row 0 (unused), the rows 1 … 7, their mirror image, and it above the image
    TRef.unary (.of main_arg0 : TRef sig ⟨S32x3x512x512, .f32⟩) main_call0.v0 (extractStridedSlice S32x3x1x512 ![0, 0, 0, 0] · slices_S32x3x512x512_S32x3x1x512_0_0_0_0),
    TRef.unary (.of main_arg0 : TRef sig ⟨S32x3x512x512, .f32⟩) main_call0.v1 (extractStridedSlice S32x3x7x512 ![0, 0, 1, 0] · slices_S32x3x512x512_S32x3x7x512_0_0_1_0),
    TRef.unary main_call0.v1 main_call0.call0.v0 (Host.reverse [2]),
    TRef.binary main_call0.call0.v0 (.of main_arg0 : TRef sig ⟨S32x3x512x512, .f32⟩) main_call0.v3 (fun a b => concatenate S32x3x519x512 2 [⟨S32x3x7x512, a⟩, ⟨S32x3x512x512, b⟩] concatenates_S32x3x7x512_S32x3x512x512_S32x3x519x512_d2),
    -- the last row (unused), the seven rows before it, their mirror image, and it below
    TRef.unary main_call0.v3 main_call0.v4 (extractStridedSlice S32x3x1x512 ![0, 0, 518, 0] · slices_S32x3x519x512_S32x3x1x512_0_0_518_0),
    TRef.unary main_call0.v3 main_call0.v5 (extractStridedSlice S32x3x7x512 ![0, 0, 511, 0] · slices_S32x3x519x512_S32x3x7x512_0_0_511_0),
    TRef.unary main_call0.v5 main_call0.call1.v0 (Host.reverse [2]),
    TRef.binary main_call0.v3 main_call0.call1.v0 main_call0.v7 (fun a b => concatenate S32x3x526x512 2 [⟨S32x3x519x512, a⟩, ⟨S32x3x7x512, b⟩] concatenates_S32x3x519x512_S32x3x7x512_S32x3x526x512_d2),
    -- the pad, columns: the column 0 (unused), the columns 1 … 7, their mirror image, and it left of the array
    TRef.unary main_call0.v7 main_call0.v8 (extractStridedSlice S32x3x526x1 ![0, 0, 0, 0] · slices_S32x3x526x512_S32x3x526x1_0_0_0_0),
    TRef.unary main_call0.v7 main_call0.v9 (extractStridedSlice S32x3x526x7 ![0, 0, 0, 1] · slices_S32x3x526x512_S32x3x526x7_0_0_0_1),
    TRef.unary main_call0.v9 main_call0.call2.v0 (Host.reverse [3]),
    TRef.binary main_call0.call2.v0 main_call0.v7 main_call0.v11 (fun a b => concatenate S32x3x526x519 3 [⟨S32x3x526x7, a⟩, ⟨S32x3x526x512, b⟩] concatenates_S32x3x526x7_S32x3x526x512_S32x3x526x519_d3),
    -- the last column (unused), the seven columns before it, their mirror image, and it on the right
    TRef.unary main_call0.v11 main_call0.v12 (extractStridedSlice S32x3x526x1 ![0, 0, 0, 518] · slices_S32x3x526x519_S32x3x526x1_0_0_0_518),
    TRef.unary main_call0.v11 main_call0.v13 (extractStridedSlice S32x3x526x7 ![0, 0, 0, 511] · slices_S32x3x526x519_S32x3x526x7_0_0_0_511),
    TRef.unary main_call0.v13 main_call0.call3.v0 (Host.reverse [3]),
    TRef.binary main_call0.v11 main_call0.call3.v0 main_call0.v15 (fun a b => concatenate S32x3x526x526 3 [⟨S32x3x526x519, a⟩, ⟨S32x3x526x7, b⟩] concatenates_S32x3x526x519_S32x3x526x7_S32x3x526x526_d3),
    -- the three minima from +∞, the sum over the batch from 0, the quotient by 32
    nullary main_cst (constant S_ .f32 0x7F800000#32),
    binary main_v0 main_cst main_v1 ((fun x v => Host.reduce FloatOps.minimumf x v reducesTo_S32x3x526x526_S32x526x526_d1 h_S_) : (⟨S32x3x526x526, .f32⟩ : BufTy).Contents (Elt F) → (⟨S_, .f32⟩ : BufTy).Contents (Elt F) → (⟨S32x526x526, .f32⟩ : BufTy).Contents (Elt F)),
    nullary main_cst_0 (constant S_ .f32 0x7F800000#32),
    binary main_v1 main_cst_0 main_v2 ((fun x v => Host.reduce FloatOps.minimumf x v reducesTo_S32x526x526_S32x526_d1 h_S_) : (⟨S32x526x526, .f32⟩ : BufTy).Contents (Elt F) → (⟨S_, .f32⟩ : BufTy).Contents (Elt F) → (⟨S32x526, .f32⟩ : BufTy).Contents (Elt F)),
    nullary main_cst_1 (constant S_ .f32 0x7F800000#32),
    binary main_v2 main_cst_1 main_v3 ((fun x v => Host.reduce FloatOps.minimumf x v reducesTo_S32x526_S32_d1 h_S_) : (⟨S32x526, .f32⟩ : BufTy).Contents (Elt F) → (⟨S_, .f32⟩ : BufTy).Contents (Elt F) → (⟨S32, .f32⟩ : BufTy).Contents (Elt F)),
    nullary main_cst_2 (constant S_ .f32 0x00000000#32),
    binary main_v3 main_cst_2 main_v4 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_3 (constant S_ .f32 0x42000000#32),
    binary main_v4 main_cst_3 main_v5 (Host.divf : (⟨S_, .f32⟩ : BufTy).Contents (Elt F) → (⟨S_, .f32⟩ : BufTy).Contents (Elt F) → (⟨S_, .f32⟩ : BufTy).Contents (Elt F)) ]

set_option maxRecDepth 1024 in
/-- @main is that straight line: the three functions' bodies unfolded at their calls, both sides are one chain of
    steps once the sequencing is reassociated. -/
theorem main_eq (c : Dev nD) : main (F := F) c = seq ops := by
  simp only [main, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub ..,
    unary_bufs_sub .., unary_bufs_sub .., unary_bufs_sub .., binary_bufs_sub ..,
    unary_bufs_sub .., unary_bufs_sub .., unary_bufs_sub .., binary_bufs_sub ..,
    unary_bufs_sub .., unary_bufs_sub .., unary_bufs_sub .., binary_bufs_sub ..,
    unary_bufs_sub .., unary_bufs_sub .., unary_bufs_sub .., binary_bufs_sub ..,
    nullary_bufs_sub .., binary_bufs_sub .., nullary_bufs_sub .., binary_bufs_sub ..,
    nullary_bufs_sub .., binary_bufs_sub .., nullary_bufs_sub .., binary_bufs_sub ..,
    nullary_bufs_sub .., binary_bufs_sub ..⟩

/-- The argument's buffer is written by no operation of the line. -/
theorem arg0_eq (V : Valuation τ sig (Elt F)) :
    after ops V (Proc.devRef .tc main_arg0 : DevRef τ sig) = V (Proc.devRef .tc main_arg0 : DevRef τ sig) := by
  after_results

attribute [local irreducible] Host.reduce Host.reduceAdd concatenate extractStridedSlice Host.reverse in
/-- The result buffer after the line: the operations composed, which is the reference's term. The line's fold at
    the result buffer is rewritten, operation by operation, to the value each operation's function takes at its
    operands' contents; what is left is `RefTerm.result` written out, the transports of contents along a buffer's
    type being the identity at these literal buffers. The reductions, concatenations, slices and reversals are kept
    folded meanwhile: the equation never looks inside them. -/
theorem out_eq (V : Valuation τ sig (Elt F)) :
    after ops V (Proc.devRef .tc main_v5 : DevRef τ sig) = RefTerm.result (V (Proc.devRef .tc main_arg0 : DevRef τ sig)) := by
  after_results
  unfold RefTerm.result RefTerm.mins RefTerm.padded RefTerm.padCols RefTerm.colsLo RefTerm.padRows RefTerm.rowsLo
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = RefTerm.result (m ((c.tc : Thread nD τ).loc main_arg0))
      ∧ r.2.mem ((c.tc : Thread nD τ).loc main_arg0) = m ((c.tc : Thread nD τ).loc main_arg0) :=
  (θ_run defs _ _).mono (fun _ h c => ⟨(h c main_v5).trans (out_eq _), (h c main_arg0).trans (arg0_eq _)⟩)
    (run_seq scopedRefs_eq scopedSems_eq defs main (fun _ => ops) main_eq (fun _ => ops_sub) m ρ)

end Cert.ReferenceIdeal.RefRun

end
-- ==== Proof.PadEntries.lean ====
/-
  Reflect padding, and every padding built from slices, reversals and concatenations, invents no value and loses none.

  For arrays `A` over the indices of a shape `s` and `B` over those of `t`, both of positive rank, `Within A B` says:
  every entry of `A` is an entry of `B` at an index with the SAME LEADING COORDINATE. The relation is reflexive and
  transitive. A slice whose leading offset is zero, and a reversal along axes other than the leading one, lie within
  their operand; a two-piece concatenation along an axis other than the leading one lies within whatever both pieces lie
  within, and each piece lies within the concatenation. So an array built from `x` by such steps, each concatenation
  keeping the previous array as one piece, lies within `x` and `x` lies within it: the two have, leading coordinate by
  leading coordinate, the same set of entries.
-/
import Idealize.ShloMosaic.PureOps
import Idealize.ShloMosaic.Lib.Pipeline.Value

noncomputable section

namespace PadEntries

open Idealize.ShloMosaic

variable {α : Type}

/-- Every entry of `A` is an entry of `B` at an index with the same leading coordinate. -/
def Within {s t : Shape} (hs : 0 < s.rank) (ht : 0 < t.rank) (A : s.Idx → α) (B : t.Idx → α) : Prop :=
  ∀ j : s.Idx, ∃ i : t.Idx, (i ⟨0, ht⟩).val = (j ⟨0, hs⟩).val ∧ A j = B i

theorem Within.refl {s : Shape} (hs : 0 < s.rank) (A : s.Idx → α) : Within hs hs A A :=
  fun j => ⟨j, rfl, rfl⟩

theorem Within.trans {s t u : Shape} {hs : 0 < s.rank} {ht : 0 < t.rank} {hu : 0 < u.rank}
    {A : s.Idx → α} {B : t.Idx → α} {C : u.Idx → α} (h₁ : Within hs ht A B) (h₂ : Within ht hu B C) :
    Within hs hu A C := fun j => by
  obtain ⟨i, hi, e⟩ := h₁ j
  obtain ⟨k, hk, e'⟩ := h₂ i
  exact ⟨k, hk.trans hi, e.trans e'⟩

/-- A slice that starts at 0 on the leading axis reads its operand at an index with the same leading coordinate. -/
theorem within_slice {s t : Shape} (hs : 0 < s.rank) (ht : 0 < t.rank) (off : Fin s.rank → Nat) (x : s.Idx → α)
    (h : s.Slices off t) (h0 : off ⟨0, hs⟩ = 0) : Within ht hs (extractStridedSlice t off x h) x := fun j =>
  ⟨fun a => ⟨off a + (j (a.cast h.1.symm)).val, Nat.lt_of_lt_of_le (Nat.add_lt_add_left (j _).isLt _) (h.2 a)⟩,
    by show off ⟨0, hs⟩ + _ = _; rw [h0, Nat.zero_add]; rfl, rfl⟩

/-- A reversal along axes other than the leading one reads its operand at an index with the same leading coordinate. -/
theorem within_reverse {s : Shape} (hs : 0 < s.rank) (axes : List (Fin s.rank)) (x : s.Idx → α)
    (h0 : (⟨0, hs⟩ : Fin s.rank) ∉ axes) : Within hs hs (Host.reverse axes x) x := fun j =>
  ⟨fun a => if a ∈ axes then (j a).rev else j a, by show (if _ then _ else _ : Fin _).val = _; rw [if_neg h0], rfl⟩

/-- The two pieces' extents along the axis of concatenation add up to the result's. -/
theorem concat_sum {t s₁ s₂ : Shape} {a : Fin t.rank} (h : Shape.Concatenates [s₁, s₂] t a) (hr : s₁.rank = t.rank)
    (hr₂ : s₂.rank = t.rank) : s₁.size (a.cast hr.symm) + s₂.size (a.cast hr₂.symm) = t.size a := by
  have e := h.2.2
  simp only [List.map, List.sum_cons, List.sum_nil, dif_pos hr, dif_pos hr₂, Nat.add_zero] at e
  exact e

/-- Off the axis of concatenation the first piece has the result's extents … -/
theorem concat_size₁ {t s₁ s₂ : Shape} {a : Fin t.rank} (h : Shape.Concatenates [s₁, s₂] t a) (hr : s₁.rank = t.rank)
    (b : Fin t.rank) (hb : b ≠ a) : s₁.size (b.cast hr.symm) = t.size b :=
  (h.2.1 s₁ (by simp)).2 b hb

/-- … and so has the second. -/
theorem concat_size₂ {t s₁ s₂ : Shape} {a : Fin t.rank} (h : Shape.Concatenates [s₁, s₂] t a) (hr₂ : s₂.rank = t.rank)
    (b : Fin t.rank) (hb : b ≠ a) : s₂.size (b.cast hr₂.symm) = t.size b :=
  (h.2.1 s₂ (by simp)).2 b hb

/-- Each piece of a two-piece concatenation along an axis other than the leading one lies within the concatenation:
    the FIRST piece, at the index with the same coordinates. -/
theorem within_concat_left {t s₁ s₂ : Shape} (ht : 0 < t.rank) (h₁ : 0 < s₁.rank) (a : Fin t.rank)
    (x₁ : s₁.Idx → α) (x₂ : s₂.Idx → α) (h : Shape.Concatenates [s₁, s₂] t a) :
    Within h₁ ht x₁ (concatenate t a [⟨s₁, x₁⟩, ⟨s₂, x₂⟩] h) := fun i => by
  have hr : s₁.rank = t.rank := (h.2.1 s₁ (by simp)).1
  have hr₂ : s₂.rank = t.rank := (h.2.1 s₂ (by simp)).1
  have hj : ∀ b : Fin t.rank, (i (b.cast hr.symm)).val < t.size b := fun b => by
    by_cases hb : b = a
    · subst hb
      have := concat_sum h hr hr₂
      have := (i (b.cast hr.symm)).isLt
      omega
    · rw [← concat_size₁ h hr b hb]; exact (i _).isLt
  exact ⟨fun b => ⟨(i (b.cast hr.symm)).val, hj b⟩, rfl,
    (concatenate_pair_apply_left a x₁ x₂ h _ hr i fun b => rfl).symm⟩

/-- The SECOND piece, at the index moved along the axis of concatenation by the first piece's extent. -/
theorem within_concat_right {t s₁ s₂ : Shape} (ht : 0 < t.rank) (h₂ : 0 < s₂.rank) (a : Fin t.rank)
    (ha : a ≠ ⟨0, ht⟩) (x₁ : s₁.Idx → α) (x₂ : s₂.Idx → α) (h : Shape.Concatenates [s₁, s₂] t a) :
    Within h₂ ht x₂ (concatenate t a [⟨s₁, x₁⟩, ⟨s₂, x₂⟩] h) := fun i => by
  have hr : s₁.rank = t.rank := (h.2.1 s₁ (by simp)).1
  have hr₂ : s₂.rank = t.rank := (h.2.1 s₂ (by simp)).1
  have hja : (i (a.cast hr₂.symm)).val + s₁.size (a.cast hr.symm) < t.size a := by
    have := concat_sum h hr hr₂
    have := (i (a.cast hr₂.symm)).isLt
    omega
  have hjb : ∀ b : Fin t.rank, b ≠ a → (i (b.cast hr₂.symm)).val < t.size b := fun b hb => by
    rw [← concat_size₂ h hr₂ b hb]; exact (i _).isLt
  let j : t.Idx := fun b =>
    if hb : b = a then ⟨(i (a.cast hr₂.symm)).val + s₁.size (a.cast hr.symm), by subst hb; exact hja⟩
    else ⟨(i (b.cast hr₂.symm)).val, hjb b hb⟩
  have hj0 : (j ⟨0, ht⟩).val = (i ⟨0, h₂⟩).val := by
    show (dite _ _ _ : Fin _).val = _
    rw [dif_neg (Ne.symm ha)]; rfl
  refine ⟨j, hj0, (concatenate_pair_apply_right a x₁ x₂ h j hr hr₂ i (fun b hb => ?_) ?_).symm⟩
  · show _ = (dite _ _ _ : Fin _).val
    rw [dif_neg hb]; rfl
  · show _ = (dite _ _ _ : Fin _).val
    rw [dif_pos (show a = a from rfl)]

/-- A two-piece concatenation along an axis other than the leading one lies within whatever both pieces lie within:
    an index of the result falls, by its coordinate on that axis, in the first piece or in the second. -/
theorem within_concat {t s₁ s₂ u : Shape} (ht : 0 < t.rank) (h₁ : 0 < s₁.rank) (h₂ : 0 < s₂.rank) (hu : 0 < u.rank)
    (a : Fin t.rank) (ha : a ≠ ⟨0, ht⟩) (x₁ : s₁.Idx → α) (x₂ : s₂.Idx → α) (h : Shape.Concatenates [s₁, s₂] t a)
    (B : u.Idx → α) (w₁ : Within h₁ hu x₁ B) (w₂ : Within h₂ hu x₂ B) :
    Within ht hu (concatenate t a [⟨s₁, x₁⟩, ⟨s₂, x₂⟩] h) B := fun j => by
  have hr : s₁.rank = t.rank := (h.2.1 s₁ (by simp)).1
  have hr₂ : s₂.rank = t.rank := (h.2.1 s₂ (by simp)).1
  by_cases hlt : (j a).val < s₁.size (a.cast hr.symm)
  · -- the first piece, at the same coordinates
    have hi : ∀ b : Fin s₁.rank, (j (b.cast hr)).val < s₁.size b := fun b => by
      by_cases hb : b.cast hr = a
      · subst hb; exact hlt
      · have e : s₁.size b = t.size (b.cast hr) := concat_size₁ h hr (b.cast hr) hb
        exact Nat.lt_of_lt_of_eq (j _).isLt e.symm
    obtain ⟨k, hk, e⟩ := w₁ fun b => ⟨(j (b.cast hr)).val, hi b⟩
    exact ⟨k, hk, (concatenate_pair_apply_left a x₁ x₂ h j hr _ fun b => rfl).trans e⟩
  · -- the second piece, the first piece's extent taken off the coordinate on the axis of concatenation
    have hia : (j a).val - s₁.size (a.cast hr.symm) < s₂.size (a.cast hr₂.symm) := by
      have := concat_sum h hr hr₂
      have := (j a).isLt
      omega
    have hib : ∀ b : Fin s₂.rank, b.cast hr₂ ≠ a → (j (b.cast hr₂)).val < s₂.size b := fun b hb => by
      have e : s₂.size b = t.size (b.cast hr₂) := concat_size₂ h hr₂ (b.cast hr₂) hb
      exact Nat.lt_of_lt_of_eq (j _).isLt e.symm
    let i : s₂.Idx := fun b =>
      if hb : b.cast hr₂ = a then ⟨(j a).val - s₁.size (a.cast hr.symm), by subst hb; exact hia⟩
      else ⟨(j (b.cast hr₂)).val, hib b hb⟩
    have hi0 : (i ⟨0, h₂⟩).val = (j ⟨0, ht⟩).val := by
      show (dite _ _ _ : Fin _).val = _
      rw [dif_neg (fun e => ha e.symm)]; rfl
    obtain ⟨k, hk, e⟩ := w₂ i
    refine ⟨k, hk.trans hi0, (concatenate_pair_apply_right a x₁ x₂ h j hr hr₂ i (fun b hb => ?_) ?_).trans e⟩
    · show (dite _ _ _ : Fin _).val = _
      rw [dif_neg hb]
    · show (dite _ _ _ : Fin _).val + _ = _
      rw [dif_pos (show Fin.cast hr₂ (Fin.cast hr₂.symm a) = a from rfl)]
      show (j a).val - _ + _ = _
      omega

end PadEntries

end
-- ==== Proof.RefValue.lean ====
/-
  The reference's per-batch minima over the reflect-padded image are the per-batch minima of the image itself.

  Reflect padding is built from slices that keep the whole batch axis, reversals along an image axis and two-piece
  concatenations along an image axis, each concatenation keeping the array it extends as one piece. So every entry of
  the padded image is an entry of the image in the same batch, and every entry of the image occurs in the padded image
  in the same batch: batch by batch the two arrays have the same common lower bounds. The three min-reductions from +∞
  have, at batch `b`, exactly the common lower bounds of the padded image's entries in batch `b` (each drop keeps the
  batch coordinate), and a value with the lower bounds of a batch's entries is that batch's least entry.
-/
import proofs.«167451_j72593537237683_1_alg».proof.Proof.RefTerm
import proofs.«167451_j72593537237683_1_alg».proof.Proof.BatchMin
import proofs.«167451_j72593537237683_1_alg».proof.Proof.PadEntries

noncomputable section

namespace Cert.ReferenceIdeal.RefValue

open Idealize.ShloMosaic Cert.ReferenceIdeal PadEntries
open Cert.ReferenceIdeal.Facts₀

/-! ### The padded image and the image have the same entries, batch by batch -/

section Pad

variable (x : FVec Ideal S32x3x512x512 .f32) (y : FVec Ideal S32x3x526x512 .f32)

/-- The seven mirrored rows above the image are rows of the image. -/
theorem rowsLo_within : Within (by decide) (by decide) (RefTerm.rowsLo (F := Ideal) x) x :=
  within_concat _ _ _ _ 2 (by decide) _ _ _ x
    ((within_reverse (s := S32x3x7x512) (by decide) [2] _ (by decide)).trans (within_slice _ _ _ x _ rfl)) (Within.refl _ x)

/-- The image is the second piece of that concatenation. -/
theorem within_rowsLo : Within (by decide) (by decide) x (RefTerm.rowsLo (F := Ideal) x) :=
  within_concat_right _ _ 2 (by decide) _ _ _

/-- The seven mirrored rows below are rows of the image too. -/
theorem padRows_within : Within (by decide) (by decide) (RefTerm.padRows (F := Ideal) x) x :=
  within_concat _ _ _ _ 2 (by decide) _ _ _ x (rowsLo_within x)
    ((within_reverse (s := S32x3x7x512) (by decide) [2] _ (by decide)).trans ((within_slice _ _ _ _ _ rfl).trans (rowsLo_within x)))

/-- The image, inside the first piece of the second concatenation. -/
theorem within_padRows : Within (by decide) (by decide) x (RefTerm.padRows (F := Ideal) x) :=
  (within_rowsLo x).trans (within_concat_left _ _ 2 _ _ _)

/-- The same four facts along the columns, for any row-padded array. -/
theorem colsLo_within : Within (by decide) (by decide) (RefTerm.colsLo (F := Ideal) y) y :=
  within_concat _ _ _ _ 3 (by decide) _ _ _ y
    ((within_reverse (s := S32x3x526x7) (by decide) [3] _ (by decide)).trans (within_slice _ _ _ y _ rfl)) (Within.refl _ y)

theorem within_colsLo : Within (by decide) (by decide) y (RefTerm.colsLo (F := Ideal) y) :=
  within_concat_right _ _ 3 (by decide) _ _ _

theorem padCols_within : Within (by decide) (by decide) (RefTerm.padCols (F := Ideal) y) y :=
  within_concat _ _ _ _ 3 (by decide) _ _ _ y (colsLo_within y)
    ((within_reverse (s := S32x3x526x7) (by decide) [3] _ (by decide)).trans ((within_slice _ _ _ _ _ rfl).trans (colsLo_within y)))

theorem within_padCols : Within (by decide) (by decide) y (RefTerm.padCols (F := Ideal) y) :=
  (within_colsLo y).trans (within_concat_left _ _ 3 _ _ _)

/-- (i) Every entry of the reflect-padded image is an entry of the image in the same batch. -/
theorem padded_within : Within (by decide) (by decide) (RefTerm.padded (F := Ideal) x) x :=
  (padCols_within (RefTerm.padRows (F := Ideal) x)).trans (padRows_within x)

/-- (ii) Every entry of the image occurs in the reflect-padded image in the same batch. -/
theorem within_padded : Within (by decide) (by decide) x (RefTerm.padded (F := Ideal) x) :=
  (within_padRows x).trans (within_padCols (RefTerm.padRows (F := Ideal) x))

end Pad

/-! ### The three min-reductions: the lower bounds of the result at batch `b` -/

/-- The reductions start from `+∞`. -/
theorem init_top : constant (F := Ideal) S_ .f32 0x7F800000#32 (Shape.Idx.first h_S_) = (⊤ : EReal) := by
  exact (ValueIdx.constant_apply (s := S_) (φ := .f32) 0x7F800000#32 _).trans BatchMin.ofBits_inf

/-- A per-batch index is its one coordinate. -/
theorem idx1_ext {i b : S32.Idx} (h : (i 0).val = (b 0).val) : i = b := by
  funext a
  match a with
  | ⟨0, _⟩ => exact Fin.ext h

/-- The lower bounds of the triple min-reduction at batch `b` are the common lower bounds of the array's entries in
    batch `b`: each reduction's lower bounds are those of the entries that drop to the index, and each drop keeps the
    batch coordinate. -/
theorem le_mins_iff (p : FVec Ideal S32x3x526x526 .f32) (b : S32.Idx) (z : EReal) :
    z ≤ RefTerm.mins (F := Ideal) p b ↔ ∀ j : S32x3x526x526.Idx, (j 0).val = (b 0).val → z ≤ p j := by
  have d1 : ∀ j : S32x3x526x526.Idx, ((reducesTo_S32x3x526x526_S32x526x526_d1.drop j) 0).val = (j 0).val :=
    fun j => Shape.ReducesTo.drop_apply_val_of_eq reducesTo_S32x3x526x526_S32x526x526_d1 j 0 0
  have d2 : ∀ j : S32x526x526.Idx, ((reducesTo_S32x526x526_S32x526_d1.drop j) 0).val = (j 0).val :=
    fun j => Shape.ReducesTo.drop_apply_val_of_eq reducesTo_S32x526x526_S32x526_d1 j 0 0
  have d3 : ∀ j : S32x526.Idx, ((reducesTo_S32x526_S32_d1.drop j) 0).val = (j 0).val :=
    fun j => Shape.ReducesTo.drop_apply_val_of_eq reducesTo_S32x526_S32_d1 j 0 0
  unfold RefTerm.mins
  rw [BatchMin.le_hostReduce_min_iff _ _ _ _ init_top]
  constructor
  · intro H j hj
    have h3 := H (reducesTo_S32x526x526_S32x526_d1.drop (reducesTo_S32x3x526x526_S32x526x526_d1.drop j))
      (idx1_ext (((d3 _).trans (d2 _)).trans ((d1 j).trans hj)))
    have h2 := (BatchMin.le_hostReduce_min_iff _ _ _ _ init_top _ z).1 h3
      (reducesTo_S32x3x526x526_S32x526x526_d1.drop j) rfl
    exact (BatchMin.le_hostReduce_min_iff _ _ _ _ init_top _ z).1 h2 j rfl
  · intro H i₂ e₂
    rw [BatchMin.le_hostReduce_min_iff _ _ _ _ init_top]
    intro i₁ e₁
    rw [BatchMin.le_hostReduce_min_iff _ _ _ _ init_top]
    intro j e
    refine H j ?_
    rw [← e₂, ← e₁, ← e, d3, d2, d1]

/-! ### The reference's per-batch minima -/

theorem mins_padded (X : FVec Ideal S32x3x512x512 .f32) :
    RefTerm.mins (F := Ideal) (RefTerm.padded (F := Ideal) X) = BatchMin.bminV X := by
  funext b
  show _ = BatchMin.bmin X (b 0)
  refine BatchMin.eq_bmin (fun z => ?_)
  rw [le_mins_iff]
  constructor
  · intro H i hi
    obtain ⟨j, hj, e⟩ := within_padded X i
    rw [e]
    exact H j (hj.trans hi)
  · intro H j hj
    obtain ⟨i, hi, e⟩ := padded_within X j
    rw [e]
    exact H i (hi.trans hj)

theorem result_eq (X : FVec Ideal S32x3x512x512 .f32) :
    RefTerm.result (F := Ideal) X = BatchMin.meanTail (BatchMin.bminV X) := by
  unfold RefTerm.result
  rw [mins_padded]
  rfl

end Cert.ReferenceIdeal.RefValue

end
-- ==== Proof.lean ====
/-
  The certificate of a dark-channel prior: a tiled Pallas min-reduction against jnp's reflect-pad and three `jnp.min`s.

  Both programs compute, of an image array `x` : f32[32, 3, 512, 512], the mean over the 32 batches of a per-batch minimum.
  The reference first reflect-pads rows and columns by 7 and takes the minimum of the padded batch; the kernel takes
  the minimum of the batch itself, tile by tile. The two agree because reflect padding copies entries and invents none:
  every entry of the padded batch is an entry of the batch, and every entry of the batch is still there — so the two
  finite families have the same lower bounds, hence the same least element, on the extended reals as on the reals
  (no finiteness is needed: only the order is used). The mean that follows is the same operations on both sides.

    frame_Kernel, frame_KernelIdeal — the generated frame certificates.
    frame_ReferenceIdeal — the reference's run (Proof/RefRun.lean) with its result dropped.
    preserves_Kernel_KernelIdeal — the ideal pass rewrote nothing: `True`.
    algebraic_KernelIdeal_ReferenceIdeal — the kernel's result is the mean of the per-batch least entries
      (Proof/KernelValue.lean, over the invariant of Proof/KernelInv.lean), and so is the reference's
      (Proof/RefValue.lean over Proof/PadEntries.lean), of arguments that agree.
-/
import proofs.«167451_j72593537237683_1_alg».proof.Defs
import proofs.«167451_j72593537237683_1_alg».proof.Proof.Gen.Kernel
import proofs.«167451_j72593537237683_1_alg».proof.Proof.Gen.Kernel.Frame
import proofs.«167451_j72593537237683_1_alg».proof.Proof.Gen.KernelIdeal
import proofs.«167451_j72593537237683_1_alg».proof.Proof.Gen.KernelIdeal.Frame
import proofs.«167451_j72593537237683_1_alg».proof.Proof.Gen.ReferenceIdeal
import proofs.«167451_j72593537237683_1_alg».proof.Proof.Gen.Pre_finite_inputs
import proofs.«167451_j72593537237683_1_alg».proof.Proof.KernelValue
import proofs.«167451_j72593537237683_1_alg».proof.Proof.RefRun
import proofs.«167451_j72593537237683_1_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates without a fault and leaves the image as it was: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both results are the mean of the image's per-batch least entries. -/
theorem algebraic : Cert.algebraic_KernelIdeal_ReferenceIdeal := by
  intro m ρ m' ρ' _ hagree
  refine ⟨fun c => BatchMin.meanTail (BatchMin.bminV
      (m ((c.tc : Thread Cert.KernelIdeal.nD Cert.KernelIdeal.τ).loc Cert.KernelIdeal.main_arg0))),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefValue.result_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
